-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048 : Shape := ⟨2, ![1, 2048]⟩
abbrev S32768x1024 : Shape := ⟨2, ![32768, 1024]⟩
abbrev S1024x3072 : Shape := ⟨2, ![1024, 3072]⟩
abbrev S1024 : Shape := ⟨1, ![1024]⟩
abbrev S1x1024 : Shape := ⟨2, ![1, 1024]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S32768x1024 : S_.BroadcastsInDim S32768x1024 (![] : Fin 0 → Fin S32768x1024.rank)
  reducesTo_S32768x1024_S_d0_1 : S32768x1024.ReducesTo [0, 1] S_
  bcast_S_S1024x3072 : S_.BroadcastsInDim S1024x3072 (![] : Fin 0 → Fin S1024x3072.rank)
  reducesTo_S1024x3072_S_d0_1 : S1024x3072.ReducesTo [0, 1] S_
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  main_v23

def fn {F : FTy → Type} [FloatOps F] (main_arg0 : FVec F S1x2048 .f32) (main_arg1 : FVec F S32768x1024 .f32) (main_arg2 : FVec F S1024x3072 .f32) (main_arg3 : FVec F S1024 .f32) (main_arg4 : FVec F S1x1024 .f32) : IVec S_ 1 :=
  let main_v0 : FVec F S1x2048 .f32 := Host.absf main_arg0
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_c : IVec S_ 1 := constantI S_ 1 1#1
  let main_v3 : IVec S_ 1 := (fun x v => Host.reduce IntOp.andi x v reducesTo_S1x2048_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S1024x3072 .f32 := Host.absf main_arg2
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S1x2048 : Shape := ⟨2, ![1, 2048]⟩
abbrev S32768x1024 : Shape := ⟨2, ![32768, 1024]⟩
abbrev S1024x3072 : Shape := ⟨2, ![1024, 3072]⟩
abbrev S1024 : Shape := ⟨1, ![1024]⟩
abbrev S1x1024 : Shape := ⟨2, ![1, 1024]⟩
abbrev S1024x2048 : Shape := ⟨2, ![1024, 2048]⟩
abbrev S1024x1024 : Shape := ⟨2, ![1024, 1024]⟩
abbrev S2048x1024 : Shape := ⟨2, ![2048, 1024]⟩
abbrev S1024x1 : Shape := ⟨2, ![1024, 1]⟩
abbrev S32768x1 : Shape := ⟨2, ![32768, 1]⟩
abbrev S32768 : Shape := ⟨1, ![32768]⟩
abbrev S_ : Shape := ⟨0, ![]⟩
abbrev S1 : Shape := ⟨1, ![1]⟩

abbrev nBuf : Space → Nat
  | .hbm => 29
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S32768x1024, .f32⟩
  | .hbm, ⟨2, _⟩ => ⟨S1024x3072, .f32⟩
  | .hbm, ⟨3, _⟩ => ⟨S1024, .f32⟩
  | .hbm, ⟨4, _⟩ => ⟨S1x1024, .f32⟩
  | .hbm, ⟨5, _⟩ => ⟨S1024x2048, .f32⟩
  | .hbm, ⟨6, _⟩ => ⟨S1024x1024, .f32⟩
  | .hbm, ⟨7, _⟩ => ⟨S2048x1024, .f32⟩
  | .hbm, ⟨8, _⟩ => ⟨S1x1024, .f32⟩
  | .hbm, ⟨9, _⟩ => ⟨S1024x1024, .f32⟩
  | .hbm, ⟨10, _⟩ => ⟨S1024x1024, .bf16⟩
  | .hbm, ⟨11, _⟩ => ⟨S1x1024, .f32⟩
  | .hbm, ⟨12, _⟩ => ⟨S1024x1, .f32⟩
  | .hbm, ⟨13, _⟩ => ⟨S1024x1, .bf16⟩
  | .hbm, ⟨14, _⟩ => ⟨S32768x1, .f32⟩
  | .hbm, ⟨15, _⟩ => ⟨S32768, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1, .f32⟩
  | .hbm, ⟨21, _⟩ => ⟨S32768, .f32⟩
  | .hbm, ⟨22, _⟩ => ⟨S32768, .f32⟩
  | .hbm, ⟨23, _⟩ => ⟨S32768, .f32⟩
  | .hbm, ⟨24, _⟩ => ⟨S_, .f32⟩
  | .hbm, ⟨25, _⟩ => ⟨S_, .f32⟩
  | .hbm, ⟨26, _⟩ => ⟨S1, .f32⟩
  | .hbm, ⟨27, _⟩ => ⟨S32768, .f32⟩
  | .hbm, ⟨28, _⟩ => ⟨S32768, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1024x1, .bf16⟩
  | .local _ .vmem, ⟨6, _⟩ => ⟨S1024x1, .f32⟩
  | .local _ .vmem, ⟨7, _⟩ => ⟨S1024x1, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S1024x3072_S1024x2048_0_0 : S1024x3072.Slices ![0, 0] S1024x2048
  slices_S1024x3072_S1024x1024_0_2048 : S1024x3072.Slices ![0, 2048] S1024x1024
  transposes_S1024x2048_S2048x1024_1_0 : S1024x2048.Transposes [1, 0] S2048x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  transposes_S1x1024_S1024x1_1_0 : S1x1024.Transposes [1, 0] S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S32768x1_S32768 : S32768x1.ShapeCasts S32768
  reducesTo_S32768_S_d0 : S32768.ReducesTo [0] S_
  h_S_ : 0 < S_.numel
  bcast_S_S1 : S_.BroadcastsInDim S1 (![] : Fin 0 → Fin S1.rank)
  bcast_S1_S32768_0 : S1.BroadcastsInDim S32768 (![0] : Fin 1 → Fin S32768.rank)
  dot_S1x2048_S2048x1024_S1x1024_1_0_0_1_n_n_wf : DotDims.WF S1x2048 S2048x1024 S1x1024 [1] [0] [0] [1] [] []
  dot_S1024x1024_S1024x1024_S1024x1024_1_0_0_1_n_n_wf : DotDims.WF S1024x1024 S1024x1024 S1024x1024 [1] [0] [0] [1] [] []
  dot_S1024x1024_S1024x1_S1024x1_1_0_0_1_n_n_wf : DotDims.WF S1024x1024 S1024x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S1024x1.size a
  hwx0_4 : ∀ i : grid0.Coords, EltTy.bits .bf16 = 32 ∨ (Rect.block (s := S1024x1) S1024x1.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S32768x1.size a
  hwx0_5 : ∀ i : grid0.Coords, EltTy.bits .f32 = 32 ∨ (Rect.block (s := S32768x1) S1024x1.size (cc0_transform_5 i) (hinb0_5 i)).WholeWords (EltTy.packing .f32)

variable [Facts₀]

def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1_S1024x1_1_0_0_1_n_n : DotDims S1024x1024 S1024x1 S1024x1 where
  lhsContracting := [1]
  rhsContracting := [0]
  lhsNonContracting := [0]
  rhsNonContracting := [1]
  lhsBatch := []
  rhsBatch := []
  wf := dot_S1024x1024_S1024x1_S1024x1_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x2048 : Shape := ⟨2, ![1, 2048]⟩
abbrev S32768x1024 : Shape := ⟨2, ![32768, 1024]⟩
abbrev S1024x3072 : Shape := ⟨2, ![1024, 3072]⟩
abbrev S1024 : Shape := ⟨1, ![1024]⟩
abbrev S1x1024 : Shape := ⟨2, ![1, 1024]⟩
abbrev S32768x2048 : Shape := ⟨2, ![32768, 2048]⟩
abbrev S32768x3072 : Shape := ⟨2, ![32768, 3072]⟩
abbrev S3072x1024 : Shape := ⟨2, ![3072, 1024]⟩
abbrev S1024x1 : Shape := ⟨2, ![1024, 1]⟩
abbrev S32768x1 : Shape := ⟨2, ![32768, 1]⟩
abbrev S32768 : Shape := ⟨1, ![32768]⟩
abbrev S_ : Shape := ⟨0, ![]⟩
abbrev S1 : Shape := ⟨1, ![1]⟩

abbrev nBuf : Space → Nat
  | .hbm => 29
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S32768x1024, .f32⟩
  | .hbm, ⟨2, _⟩ => ⟨S1024x3072, .f32⟩
  | .hbm, ⟨3, _⟩ => ⟨S1024, .f32⟩
  | .hbm, ⟨4, _⟩ => ⟨S1x1024, .f32⟩
  | .hbm, ⟨5, _⟩ => ⟨S32768x2048, .f32⟩
  | .hbm, ⟨6, _⟩ => ⟨S32768x3072, .f32⟩
  | .hbm, ⟨7, _⟩ => ⟨S3072x1024, .f32⟩
  | .hbm, ⟨8, _⟩ => ⟨S32768x1024, .f32⟩
  | .hbm, ⟨9, _⟩ => ⟨S1x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S1024x1, .f32⟩
  | .hbm, ⟨14, _⟩ => ⟨S32768x1, .f32⟩
  | .hbm, ⟨15, _⟩ => ⟨S32768, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1, .f32⟩
  | .hbm, ⟨21, _⟩ => ⟨S32768, .f32⟩
  | .hbm, ⟨22, _⟩ => ⟨S32768, .f32⟩
  | .hbm, ⟨23, _⟩ => ⟨S32768, .f32⟩
  | .hbm, ⟨24, _⟩ => ⟨S_, .f32⟩
  | .hbm, ⟨25, _⟩ => ⟨S_, .f32⟩
  | .hbm, ⟨26, _⟩ => ⟨S1, .f32⟩
  | .hbm, ⟨27, _⟩ => ⟨S32768, .f32⟩
  | .hbm, ⟨28, _⟩ => ⟨S32768, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S1x2048_S32768x2048_0_1 : S1x2048.BroadcastsInDim S32768x2048 (![0, 1] : Fin 2 → Fin S32768x2048.rank)
  concatenates_S32768x2048_S32768x1024_S32768x3072_d1 : Shape.Concatenates [S32768x2048, S32768x1024] S32768x3072 1
  transposes_S1024x3072_S3072x1024_1_0 : S1024x3072.Transposes [1, 0] S3072x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  transposes_S1x1024_S1024x1_1_0 : S1x1024.Transposes [1, 0] S1024x1
  shapeCasts_S32768x1_S32768 : S32768x1.ShapeCasts S32768
  reducesTo_S32768_S_d0 : S32768.ReducesTo [0] S_
  h_S_ : 0 < S_.numel
  bcast_S_S1 : S_.BroadcastsInDim S1 (![] : Fin 0 → Fin S1.rank)
  bcast_S1_S32768_0 : S1.BroadcastsInDim S32768 (![0] : Fin 1 → Fin S32768.rank)
  dot_S32768x3072_S3072x1024_S32768x1024_1_0_0_1_n_n_wf : DotDims.WF S32768x3072 S3072x1024 S32768x1024 [1] [0] [0] [1] [] []
  dot_S32768x1024_S1024x1_S32768x1_1_0_0_1_n_n_wf : DotDims.WF S32768x1024 S1024x1 S32768x1 [1] [0] [0] [1] [] []

variable [Facts₀]

def dot_S32768x3072_S3072x1024_S32768x1024_1_0_0_1_n_n : DotDims S32768x3072 S3072x1024 S32768x1024 where
  lhsContracting := [1]
  rhsContracting := [0]
  lhsNonContracting := [0]
  rhsNonContracting := [1]
  lhsBatch := []
  rhsBatch := []
  wf := dot_S32768x3072_S3072x1024_S32768x1024_1_0_0_1_n_n_wf
def dot_S32768x1024_S1024x1_S32768x1_1_0_0_1_n_n : DotDims S32768x1024 S1024x1 S32768x1 where
  lhsContracting := [1]
  rhsContracting := [0]
  lhsNonContracting := [0]
  rhsNonContracting := [1]
  lhsBatch := []
  rhsBatch := []
  wf := dot_S32768x1024_S1024x1_S32768x1_1_0_0_1_n_n_wf

class Facts : Prop extends Facts₀ where

variable [Facts]
-- ==== Proof.ScoreSpec.lean ====
/-
  Additive attention scores followed by a softmax over the sequence, as ONE function of the five argument arrays.

  For a sequence position `s` and a hidden unit `j` the pre-activation is
      e(s, j) = Σ_{k < 1024} enc[s, k] · w[j, 2048 + k]  +  Σ_{k < 2048} hid[0, k] · w[j, k]  +  b[j],
  the score of position `s` is  Σ_{j < 1024} tanh (e(s, j)) · v[0, j],  and the result is the softmax of the
  scores over `s`. One program computes the two inner sums separately; the other contracts the row
  [hid[0, ·] | enc[s, ·]] of length 2048 + 1024 against w[j, ·] in one sum. The only law between the two is that a
  sum over `Fin (2048 + 1024)` is the sum over the first 2048 places plus the sum over the last 1024, which holds in
  every commutative additive monoid, so on the extended reals with no finiteness assumption.
-/
import Idealize.ShloMosaic.PureOps.Ideal
import Idealize.ShloMosaic.Lib.ValueIdx
import Mathlib.Algebra.BigOperators.Fin

noncomputable section

open scoped BigOperators

namespace Cert.AttnScore

open Idealize.ShloMosaic Idealize.ShloMosaic.ValueIdx

/-- The argument and result shapes, as literals. -/
abbrev SHid : Shape := ⟨2, ![1, 2048]⟩
abbrev SEnc : Shape := ⟨2, ![32768, 1024]⟩
abbrev SW : Shape := ⟨2, ![1024, 3072]⟩
abbrev SB : Shape := ⟨1, ![1024]⟩
abbrev SV : Shape := ⟨2, ![1, 1024]⟩
abbrev SScore : Shape := ⟨2, ![32768, 1]⟩
abbrev SSeq : Shape := ⟨1, ![32768]⟩
abbrev SScalar : Shape := ⟨0, ![]⟩
abbrev SOne : Shape := ⟨1, ![1]⟩

/-- Column `2048 + k` of the weight's 3072 columns. -/
abbrev encCol (k : Fin 1024) : Fin 3072 := ⟨2048 + k.val, by have := k.isLt; omega⟩
/-- Column `k` of the weight's 3072 columns, for `k < 2048`. -/
abbrev hidCol (k : Fin 2048) : Fin 3072 := ⟨k.val, by have := k.isLt; omega⟩

/-- The pre-activation `e(s, j)`: the encoder row's part, the hidden state's part, the bias. -/
def energy (hid : FVec Ideal SHid .f32) (enc : FVec Ideal SEnc .f32) (w : FVec Ideal SW .f32) (b : FVec Ideal SB .f32)
    (s : Fin 32768) (j : Fin 1024) : EReal :=
  (∑ k : Fin 1024, enc (ix2 s k) * w (ix2 j (encCol k))) + (∑ k : Fin 2048, hid (ix2 (0 : Fin 1) k) * w (ix2 j (hidCol k))) + b (ix1 j)

/-- The score of every sequence position, as a [32768, 1] array. -/
def score (hid : FVec Ideal SHid .f32) (enc : FVec Ideal SEnc .f32) (w : FVec Ideal SW .f32) (b : FVec Ideal SB .f32)
    (v : FVec Ideal SV .f32) : FVec Ideal SScore .f32 :=
  fun i => ∑ j : Fin 1024, Ideal.tanh (energy hid enc w b (i 0) j) * v (ix2 (0 : Fin 1) j)

/-- A sum over the 3072 places of a concatenated row is the sum over its first 2048 places plus the sum over its
    last 1024. -/
theorem sum_concat_row (f : Fin 3072 → EReal) :
    ∑ k : Fin 3072, f k = (∑ k : Fin 2048, f (hidCol k)) + ∑ k : Fin 1024, f (encCol k) :=
  Fin.sum_univ_add (a := 2048) (b := 1024) f

/-- So the one-sum arrangement of the pre-activation, over a row that reads the hidden state on its first 2048 places
    and the encoder row on its last 1024, is `energy`. -/
theorem energy_of_concat (hid : FVec Ideal SHid .f32) (enc : FVec Ideal SEnc .f32) (w : FVec Ideal SW .f32) (b : FVec Ideal SB .f32)
    (s : Fin 32768) (j : Fin 1024) (row : Fin 3072 → EReal)
    (hh : ∀ k : Fin 2048, row (hidCol k) = hid (ix2 (0 : Fin 1) k)) (he : ∀ k : Fin 1024, row (encCol k) = enc (ix2 s k)) :
    (∑ k : Fin 3072, row k * w (ix2 j k)) + b (ix1 j) = energy hid enc w b s j := by
  unfold energy
  rw [sum_concat_row, add_comm (∑ k : Fin 2048, _)]
  simp only [hh, he]

/-- The softmax over the sequence that both programs apply to the [32768, 1] score array: the array read as a vector
    of length 32768, its maximum (from `-∞`), the exponentials of the differences, their sum (from `0`), the quotient.
    The five shape relations are parameters, so that each program supplies its own witnesses. -/
def softmaxOf (hc : SScore.ShapeCasts SSeq) (hr : SSeq.ReducesTo [0] SScalar) (h0 : 0 < SScalar.numel)
    (hb0 : SScalar.BroadcastsInDim SOne (![] : Fin 0 → Fin SOne.rank)) (hb1 : SOne.BroadcastsInDim SSeq (![0] : Fin 1 → Fin SSeq.rank))
    (x : FVec Ideal SScore .f32) : FVec Ideal SSeq .f32 :=
  Host.divf
    (Host.exp (subf (shapeCast SSeq x hc) (broadcastInDim SSeq ![0] hb1 (broadcastInDim SOne ![] hb0
      (maximumf (constant (F := Ideal) SScalar .f32 0xFF800000#32)
        (Host.reduce FloatOps.maximumf (shapeCast SSeq x hc) (constant (F := Ideal) SScalar .f32 0xFF800000#32) hr h0))))))
    (broadcastInDim SSeq ![0] hb1 (broadcastInDim SOne ![] hb0
      (Host.reduceAdd
        (Host.exp (subf (shapeCast SSeq x hc) (broadcastInDim SSeq ![0] hb1 (broadcastInDim SOne ![] hb0
          (maximumf (constant (F := Ideal) SScalar .f32 0xFF800000#32)
            (Host.reduce FloatOps.maximumf (shapeCast SSeq x hc) (constant (F := Ideal) SScalar .f32 0xFF800000#32) hr h0))))))
        (constant (F := Ideal) SScalar .f32 0x00000000#32) hr h0)))

end Cert.AttnScore

end
-- ==== Proof.KEntry.lean ====
/-
  What the region's arrays hold when it is entered, read at an index of the argument arrays: the weight block is the
  transposed slice of columns 2048 … 3071 of `w`; the hidden row is the product of `hid` with the transposed slice of
  columns 0 … 2047; the bias row is `b` reshaped to [1, 1024]; the column is `v` transposed. A change of float format
  is the identity at the exact values.
-/
import proofs.«100050_j21543555957314_1_alg».proof.Proof.Gen.KernelIdeal.Frame
import proofs.«100050_j21543555957314_1_alg».proof.Proof.ScoreSpec
import Idealize.ShloMosaic.Lib.Pipeline.Value
import Idealize.ShloMosaic.Lib.ValueIdx
import Idealize.ShloMosaic.Lib.StableHlo.Run
import Idealize.ShloMosaic.PureOps.Ideal.Laws

noncomputable section

open scoped BigOperators

namespace Cert.KernelIdeal.Entry

open Cert.KernelIdeal Cert.KernelIdeal.Gen Idealize.ShloMosaic Idealize.ShloMosaic.TcCoe Idealize.ShloMosaic.ValueIdx
open Idealize.ShloMosaic.StableHlo Idealize.SL.Sem Cert.AttnScore

variable (m : (ℓ : Loc nD τ sig) → Buf (Elt Ideal) ℓ)

/-- The five argument arrays as launched, at their literal types. -/
abbrev hidA (c : Dev nD) : FVec Ideal S1x2048 .f32 := m ((c : Thread nD τ).loc main_arg0)
abbrev encA (c : Dev nD) : FVec Ideal S32768x1024 .f32 := m ((c : Thread nD τ).loc main_arg1)
abbrev wA (c : Dev nD) : FVec Ideal S1024x3072 .f32 := m ((c : Thread nD τ).loc main_arg2)
abbrev bA (c : Dev nD) : FVec Ideal S1024 .f32 := m ((c : Thread nD τ).loc main_arg3)
abbrev vA (c : Dev nD) : FVec Ideal S1x1024 .f32 := m ((c : Thread nD τ).loc main_arg4)

/-- The four arrays the host operations before the region write, as the region finds them, at their literal types. -/
abbrev hrowV (c : Dev nD) : FVec Ideal S1x1024 .f32 := V m c main_v3
abbrev wblkV (c : Dev nD) : FVec Ideal S1024x1024 .bf16 := V m c main_v5
abbrev browV (c : Dev nD) : FVec Ideal S1x1024 .f32 := V m c main_v6
abbrev vcolV (c : Dev nD) : FVec Ideal S1024x1 .bf16 := V m c main_v8
abbrev encV (c : Dev nD) : FVec Ideal S32768x1024 .f32 := V m c main_arg1

/-! ## The arrays as whole terms -/

theorem V_enc (c : Dev nD) : encV m c = encA m c := V_main_arg1 m c

theorem V_hrow (c : Dev nD) : hrowV m c
    = Host.dotGeneral dot_S1x2048_S2048x1024_S1x1024_1_0_0_1_n_n none (hidA m c)
        (transpose S2048x1024 [1, 0] (extractStridedSlice S1024x2048 ![0, 0] (wA m c) slices_S1024x3072_S1024x2048_0_0) transposes_S1024x2048_S2048x1024_1_0) := by
  show StableHlo.after hostOps0 (fun b => m (c, b)) (Proc.devRef .tc main_v3) = _
  after_results <;> rfl

theorem V_wblk (c : Dev nD) : wblkV m c
    = truncf .bf16 (transpose S1024x1024 [1, 0] (extractStridedSlice S1024x1024 ![0, 2048] (wA m c) slices_S1024x3072_S1024x1024_0_2048) transposes_S1024x1024_S1024x1024_1_0) bitsLt_bf16_f32 := by
  show StableHlo.after hostOps0 (fun b => m (c, b)) (Proc.devRef .tc main_v5) = _
  after_results <;> rfl

theorem V_brow (c : Dev nD) : browV m c = shapeCast S1x1024 (bA m c) shapeCasts_S1024_S1x1024 := by
  show StableHlo.after hostOps0 (fun b => m (c, b)) (Proc.devRef .tc main_v6) = _
  after_results <;> rfl

theorem V_vcol (c : Dev nD) : vcolV m c
    = truncf .bf16 (transpose S1024x1 [1, 0] (vA m c) transposes_S1x1024_S1024x1_1_0) bitsLt_bf16_f32 := by
  show StableHlo.after hostOps0 (fun b => m (c, b)) (Proc.devRef .tc main_v8) = _
  after_results <;> rfl

/-! ## The [1, 2048] × [2048, 1024] product on the host -/

theorem lhs_hd_0 (i : S1x1024.Idx) (q : dot_S1x2048_S2048x1024_S1x1024_1_0_0_1_n_n.contr.Idx) :
    (dot_S1x2048_S2048x1024_S1x1024_1_0_0_1_n_n.lhsIdx i q 0).val = (i 0).val := by
  unfold DotDims.lhsIdx
  rw [dif_neg (show ¬(0 : Fin S1x2048.rank) ∈ dot_S1x2048_S2048x1024_S1x1024_1_0_0_1_n_n.lhsBatch by decide), dif_pos (show (0 : Fin S1x2048.rank) ∈ dot_S1x2048_S2048x1024_S1x1024_1_0_0_1_n_n.lhsNonContracting by decide)]
  rfl
theorem lhs_hd_1 (i : S1x1024.Idx) (q : dot_S1x2048_S2048x1024_S1x1024_1_0_0_1_n_n.contr.Idx) :
    (dot_S1x2048_S2048x1024_S1x1024_1_0_0_1_n_n.lhsIdx i q 1).val = (q ⟨0, by decide⟩).val :=
  dot_S1x2048_S2048x1024_S1x1024_1_0_0_1_n_n.lhsIdx_val_of_single rfl i q
theorem rhs_hd_0 (i : S1x1024.Idx) (q : dot_S1x2048_S2048x1024_S1x1024_1_0_0_1_n_n.contr.Idx) :
    (dot_S1x2048_S2048x1024_S1x1024_1_0_0_1_n_n.rhsIdx i q 0).val = (q ⟨0, by decide⟩).val :=
  dot_S1x2048_S2048x1024_S1x1024_1_0_0_1_n_n.rhsIdx_val_of_single rfl i q
theorem rhs_hd_1 (i : S1x1024.Idx) (q : dot_S1x2048_S2048x1024_S1x1024_1_0_0_1_n_n.contr.Idx) :
    (dot_S1x2048_S2048x1024_S1x1024_1_0_0_1_n_n.rhsIdx i q 1).val = (i 1).val := by
  unfold DotDims.rhsIdx
  rw [dif_neg (show ¬(1 : Fin S2048x1024.rank) ∈ dot_S1x2048_S2048x1024_S1x1024_1_0_0_1_n_n.rhsBatch by decide), dif_pos (show (1 : Fin S2048x1024.rank) ∈ dot_S1x2048_S2048x1024_S1x1024_1_0_0_1_n_n.rhsNonContracting by decide)]
  rfl

/-- The host product at `(z, j)`: the row of the left factor against column `j` of the right one. -/
theorem hdot_apply (a : FVec Ideal S1x2048 .f32) (b : FVec Ideal S2048x1024 .f32) (z : Fin 1) (j : Fin 1024) :
    Host.dotGeneral dot_S1x2048_S2048x1024_S1x1024_1_0_0_1_n_n none a b (ix2 z j) = ∑ k : Fin 2048, a (ix2 z k) * b (ix2 k j) := by
  simp only [Host.dotGeneral]
  rw [Ideal.dotGeneral_apply, ← Equiv.sum_comp (ValueIdx.contrEquiv1 dot_S1x2048_S2048x1024_S1x1024_1_0_0_1_n_n 2048 rfl rfl).symm]
  refine Finset.sum_congr rfl fun k _ => ?_
  have hk := ValueIdx.contrEquiv1_symm_val dot_S1x2048_S2048x1024_S1x1024_1_0_0_1_n_n 2048 rfl rfl k
  have el : dot_S1x2048_S2048x1024_S1x1024_1_0_0_1_n_n.lhsIdx (ix2 z j) ((ValueIdx.contrEquiv1 dot_S1x2048_S2048x1024_S1x1024_1_0_0_1_n_n 2048 rfl rfl).symm k) = ix2 z k := funext fun a => Fin.ext (by
    match a with
    | ⟨0, _⟩ => exact lhs_hd_0 _ _
    | ⟨1, _⟩ => exact (lhs_hd_1 _ _).trans hk)
  have er : dot_S1x2048_S2048x1024_S1x1024_1_0_0_1_n_n.rhsIdx (ix2 z j) ((ValueIdx.contrEquiv1 dot_S1x2048_S2048x1024_S1x1024_1_0_0_1_n_n 2048 rfl rfl).symm k) = ix2 k j := funext fun a => Fin.ext (by
    match a with
    | ⟨0, _⟩ => exact (rhs_hd_0 _ _).trans hk
    | ⟨1, _⟩ => exact rhs_hd_1 _ _)
  rw [el, er]

/-! ## The arrays at an index -/

/-- The weight block at `(k, j)` is `w[j, 2048 + k]`. -/
theorem wblk_apply (c : Dev nD) (k j : Fin 1024) :
    wblkV m c (ix2 k j) = wA m c (ix2 j (encCol k)) := by
  rw [V_wblk, truncf_apply]
  refine (transpose_apply [1, 0] _ transposes_S1024x1024_S1024x1024_1_0 (ix2 k j) (ix2 j k) (fun b => match b with
    | ⟨0, _⟩ => rfl
    | ⟨1, _⟩ => rfl)).trans ?_
  exact extractStridedSlice_apply ![0, 2048] (wA m c) slices_S1024x3072_S1024x1024_0_2048 (ix2 j k) (ix2 j (encCol k)) (fun a => match a with
    | ⟨0, _⟩ => by show j.val = 0 + j.val; omega
    | ⟨1, _⟩ => rfl)

/-- The hidden row at `(0, j)` is `Σ_k hid[0, k] · w[j, k]` over the first 2048 columns. -/
theorem hrow_apply (c : Dev nD) (j : Fin 1024) :
    hrowV m c (ix2 (0 : Fin 1) j) = ∑ k : Fin 2048, hidA m c (ix2 (0 : Fin 1) k) * wA m c (ix2 j (hidCol k)) := by
  rw [V_hrow, hdot_apply]
  refine Finset.sum_congr rfl fun k _ => congrArg (hidA m c (ix2 (0 : Fin 1) k) * ·) ?_
  refine (transpose_apply [1, 0] _ transposes_S1024x2048_S2048x1024_1_0 (ix2 k j) (ix2 j k) (fun b => match b with
    | ⟨0, _⟩ => rfl
    | ⟨1, _⟩ => rfl)).trans ?_
  exact extractStridedSlice_apply ![0, 0] (wA m c) slices_S1024x3072_S1024x2048_0_0 (ix2 j k) (ix2 j (hidCol k)) (fun a => match a with
    | ⟨0, _⟩ => by show j.val = 0 + j.val; omega
    | ⟨1, _⟩ => by show k.val = 0 + k.val; omega)

/-- The bias row at `(0, j)` is `b[j]`. -/
theorem brow_apply (c : Dev nD) (j : Fin 1024) :
    browV m c (ix2 (0 : Fin 1) j) = bA m c (ix1 j) := by
  rw [V_brow]
  exact shapeCast_apply (bA m c) shapeCasts_S1024_S1x1024 (ix2 (0 : Fin 1) j) (ix1 j)
    (by rewrite [Shape.rowMajor_val_two, Shape.rowMajor_val_one]; show j.val = 0 * 1024 + j.val; omega)

/-- The column at `(j, q)` is `v[0, j]`. -/
theorem vcol_apply (c : Dev nD) (j : Fin 1024) (q : Fin 1) :
    vcolV m c (ix2 j q) = vA m c (ix2 (0 : Fin 1) j) := by
  rw [V_vcol, truncf_apply]
  exact transpose_apply [1, 0] _ transposes_S1x1024_S1024x1_1_0 (ix2 j q) (ix2 (0 : Fin 1) j) (fun b => match b with
    | ⟨0, _⟩ => rfl
    | ⟨1, _⟩ => by show (0 : Nat) = q.val; omega)

end Cert.KernelIdeal.Entry

end
-- ==== Proof.KPayload.lean ====
/-
  The kernel body's one stored value, read at an index of its [1024, 1] block: with `x0` the encoder block, `x1` the
  [1024, 1024] weight block, `x2` and `x3` the two [1, 1024] rows and `x4` the [1024, 1] column,
      pay[p, q] = Σ_j tanh ( Σ_k x0[p, k] · x1[k, j] + x2[0, j] + x3[0, j] ) · x4[j, q].
  At the exact values a change of float format is the identity and a matrix product into a zero accumulator is the
  plain sum over the contracted axis.
-/
import proofs.«100050_j21543555957314_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The [1024, 1024] × [1024, 1024] product -/

theorem lhs_mm0_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_mm0_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_mm0_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_mm0_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The first product at `(p, j)`: row `p` of the left factor against column `j` of the right one. -/
theorem mm0_apply (a b : FVec Ideal S1024x1024 .bf16) (p j : Fin 1024) :
    matmul dot_S1024x1024_S1024x1024_S1024x1024_1_0_0_1_n_n none a b (constant (F := Ideal) S1024x1024 .f32 0x00000000#32) (ix2 p j)
      = ∑ k : Fin 1024, a (ix2 p k) * b (ix2 k j) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p j) ((ValueIdx.contrEquiv1 dot_S1024x1024_S1024x1024_S1024x1024_1_0_0_1_n_n 1024 rfl rfl).symm k) = ix2 p k := funext fun a => Fin.ext (by
    match a with
    | ⟨0, _⟩ => exact lhs_mm0_0 _ _
    | ⟨1, _⟩ => exact (lhs_mm0_1 _ _).trans hk)
  have er : dot_S1024x1024_S1024x1024_S1024x1024_1_0_0_1_n_n.rhsIdx (ix2 p j) ((ValueIdx.contrEquiv1 dot_S1024x1024_S1024x1024_S1024x1024_1_0_0_1_n_n 1024 rfl rfl).symm k) = ix2 k j := funext fun a => Fin.ext (by
    match a with
    | ⟨0, _⟩ => exact (rhs_mm0_0 _ _).trans hk
    | ⟨1, _⟩ => exact rhs_mm0_1 _ _)
  rw [el, er]

/-! ## The [1024, 1024] × [1024, 1] product -/

theorem lhs_mm1_0 (i : S1024x1.Idx) (q : dot_S1024x1024_S1024x1_S1024x1_1_0_0_1_n_n.contr.Idx) :
    (dot_S1024x1024_S1024x1_S1024x1_1_0_0_1_n_n.lhsIdx i q 0).val = (i 0).val := by
  unfold DotDims.lhsIdx
  rw [dif_neg (show ¬(0 : Fin S1024x1024.rank) ∈ dot_S1024x1024_S1024x1_S1024x1_1_0_0_1_n_n.lhsBatch by decide), dif_pos (show (0 : Fin S1024x1024.rank) ∈ dot_S1024x1024_S1024x1_S1024x1_1_0_0_1_n_n.lhsNonContracting by decide)]
  rfl
theorem lhs_mm1_1 (i : S1024x1.Idx) (q : dot_S1024x1024_S1024x1_S1024x1_1_0_0_1_n_n.contr.Idx) :
    (dot_S1024x1024_S1024x1_S1024x1_1_0_0_1_n_n.lhsIdx i q 1).val = (q ⟨0, by decide⟩).val :=
  dot_S1024x1024_S1024x1_S1024x1_1_0_0_1_n_n.lhsIdx_val_of_single rfl i q
theorem rhs_mm1_0 (i : S1024x1.Idx) (q : dot_S1024x1024_S1024x1_S1024x1_1_0_0_1_n_n.contr.Idx) :
    (dot_S1024x1024_S1024x1_S1024x1_1_0_0_1_n_n.rhsIdx i q 0).val = (q ⟨0, by decide⟩).val :=
  dot_S1024x1024_S1024x1_S1024x1_1_0_0_1_n_n.rhsIdx_val_of_single rfl i q
theorem rhs_mm1_1 (i : S1024x1.Idx) (q : dot_S1024x1024_S1024x1_S1024x1_1_0_0_1_n_n.contr.Idx) :
    (dot_S1024x1024_S1024x1_S1024x1_1_0_0_1_n_n.rhsIdx i q 1).val = (i 1).val := by
  unfold DotDims.rhsIdx
  rw [dif_neg (show ¬(1 : Fin S1024x1.rank) ∈ dot_S1024x1024_S1024x1_S1024x1_1_0_0_1_n_n.rhsBatch by decide), dif_pos (show (1 : Fin S1024x1.rank) ∈ dot_S1024x1024_S1024x1_S1024x1_1_0_0_1_n_n.rhsNonContracting by decide)]
  rfl

/-- The second product at `(p, q)`: row `p` of the left factor against the right factor's column `q`. -/
theorem mm1_apply (a : FVec Ideal S1024x1024 .bf16) (b : FVec Ideal S1024x1 .bf16) (p : Fin 1024) (q : Fin 1) :
    matmul dot_S1024x1024_S1024x1_S1024x1_1_0_0_1_n_n none a b (constant (F := Ideal) S1024x1 .f32 0x00000000#32) (ix2 p q)
      = ∑ j : Fin 1024, a (ix2 p j) * b (ix2 j q) := by
  simp only [matmul]
  rw [Ideal.matmul_constant_zero_apply, ← Equiv.sum_comp (ValueIdx.contrEquiv1 dot_S1024x1024_S1024x1_S1024x1_1_0_0_1_n_n 1024 rfl rfl).symm]
  refine Finset.sum_congr rfl fun k _ => ?_
  have hk := ValueIdx.contrEquiv1_symm_val dot_S1024x1024_S1024x1_S1024x1_1_0_0_1_n_n 1024 rfl rfl k
  have el : dot_S1024x1024_S1024x1_S1024x1_1_0_0_1_n_n.lhsIdx (ix2 p q) ((ValueIdx.contrEquiv1 dot_S1024x1024_S1024x1_S1024x1_1_0_0_1_n_n 1024 rfl rfl).symm k) = ix2 p k := funext fun a => Fin.ext (by
    match a with
    | ⟨0, _⟩ => exact lhs_mm1_0 _ _
    | ⟨1, _⟩ => exact (lhs_mm1_1 _ _).trans hk)
  have er : dot_S1024x1024_S1024x1_S1024x1_1_0_0_1_n_n.rhsIdx (ix2 p q) ((ValueIdx.contrEquiv1 dot_S1024x1024_S1024x1_S1024x1_1_0_0_1_n_n 1024 rfl rfl).symm k) = ix2 k q := funext fun a => Fin.ext (by
    match a with
    | ⟨0, _⟩ => exact (rhs_mm1_0 _ _).trans hk
    | ⟨1, _⟩ => exact rhs_mm1_1 _ _)
  rw [el, er]

/-! ## A [1, 1024] row broadcast over 1024 rows -/

/-- The row broadcast to [1024, 1024], read at `(p, j)`, is the row at `(0, j)`. -/
theorem bcastRow_apply (r : FVec Ideal S1x1024 .f32) (p j : Fin 1024) :
    broadcastTo S1024x1024 r broadcasts_S1x1024_S1024x1024 (ix2 p j) = r (ix2 (0 : Fin 1) j) :=
  broadcastTo_apply r broadcasts_S1x1024_S1024x1024 (ix2 p j) (ix2 (0 : Fin 1) j) (fun a => match a with
    | ⟨0, _⟩ => by show 0 = if (1 : Nat) = 1 then 0 else _; rw [if_pos rfl]
    | ⟨1, _⟩ => by show j.val = if (1024 : Nat) = 1 then 0 else j.val; rw [if_neg (by decide)])

/-! ## The stored value -/

/-- The body's stored value at `(p, q)`. -/
theorem pay_apply (x0 : Vec Ideal S1024x1024 .f32) (x1 : Vec Ideal S1024x1024 .bf16) (x2 x3 : Vec Ideal S1x1024 .f32)
    (x4 : Vec Ideal S1024x1 .bf16) (p : Fin 1024) (q : Fin 1) :
    k0_pay1 (F := Ideal) x0 x1 x2 x3 x4 (ix2 p q)
      = ∑ j : Fin 1024, Ideal.tanh ((∑ k : Fin 1024, x0 (ix2 p k) * x1 (ix2 k j)) + x2 (ix2 (0 : Fin 1) j) + x3 (ix2 (0 : Fin 1) j)) * x4 (ix2 j q) := by
  unfold k0_pay1
  refine (mm1_apply _ _ p q).trans ?_
  refine Finset.sum_congr rfl fun j _ => ?_
  simp only [shapeCast_self]
  show Ideal.tanh ((matmul dot_S1024x1024_S1024x1024_S1024x1024_1_0_0_1_n_n none (truncf .bf16 x0 bitsLt_bf16_f32) x1
      (constant (F := Ideal) S1024x1024 .f32 0x00000000#32) (ix2 p j)
        + broadcastTo S1024x1024 x2 broadcasts_S1x1024_S1024x1024 (ix2 p j))
        + broadcastTo S1024x1024 x3 broadcasts_S1x1024_S1024x1024 (ix2 p j)) * x4 (ix2 j q) = _
  rw [mm0_apply, bcastRow_apply, bcastRow_apply]
  rfl

end Cert.KernelIdeal.Body

end
-- ==== Proof.KBlocks.lean ====
/-
  From the body's block to the whole score array. At grid point `t` the body reads rows 1024·t … 1024·t + 1023 of the
  encoder array and the four small arrays whole, and writes rows 1024·t … 1024·t + 1023 of the [32768, 1] output; what
  it writes there is `score` of the arguments at those rows, and the 32 blocks cover the output.
-/
import proofs.«100050_j21543555957314_1_alg».proof.Proof.Gen.KernelIdeal.Frame
import proofs.«100050_j21543555957314_1_alg».proof.Proof.ScoreSpec
import proofs.«100050_j21543555957314_1_alg».proof.Proof.KPayload
import proofs.«100050_j21543555957314_1_alg».proof.Proof.KEntry
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen Cert.KernelIdeal.Body Cert.KernelIdeal.Entry
open Idealize.ShloMosaic Idealize.ShloMosaic.TcCoe Idealize.ShloMosaic.ValueIdx Idealize.SL.Sem Cert.AttnScore
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- The printed index maps over the grid: the encoder window and the output window move with the point along the rows,
    the four small windows stay at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 32 :=
  (by decide +kernel : ∀ t : Fin grid0.N, _)

/-- Every block row of the output is some point's. -/
theorem idx_onto : ∀ q0 : Fin 32, ∃ t : Fin cfg0.N, win0_5.index t = ![q0.val, 0] :=
  (by decide +kernel : ∀ q0 : Fin 32, ∃ t : Fin grid0.N, win0_5.index t = ![q0.val, 0])

/-- The input blocks at a point, at their literal types. -/
abbrev encBlk (c : Dev nD) (t : Fin cfg0.N) : Vec Ideal S1024x1024 .f32 := iblk m c 0 t
abbrev wBlk (c : Dev nD) (t : Fin cfg0.N) : Vec Ideal S1024x1024 .bf16 := iblk m c 1 t
abbrev hBlk (c : Dev nD) (t : Fin cfg0.N) : Vec Ideal S1x1024 .f32 := iblk m c 2 t
abbrev bBlk (c : Dev nD) (t : Fin cfg0.N) : Vec Ideal S1x1024 .f32 := iblk m c 3 t
abbrev vBlk (c : Dev nD) (t : Fin cfg0.N) : Vec Ideal S1024x1 .bf16 := iblk m c 4 t

/-- Row `p` of point `t`'s encoder block is row `1024·t + p` of the encoder array. -/
theorem encBlk_apply (c : Dev nD) (t : Fin cfg0.N) (p k : Fin 1024) (s : Fin 32768) (hs : s.val = t.val * 1024 + p.val) :
    encBlk m c t (ix2 p k) = encA m c (ix2 s k) := by
  obtain ⟨e0, e1, -⟩ := idx_facts t
  show encV m c (((cfg0.win 0).blk t).view.emb (ix2 p k)) = _
  rw [V_enc]
  refine congrArg (encA m c) (funext fun a => Fin.ext ?_)
  match a with
  | ⟨0, _⟩ => show win0_0.index t (0 : Fin 2) * 1024 + 1 * p.val = s.val; omega
  | ⟨1, _⟩ => show win0_0.index t (1 : Fin 2) * 1024 + 1 * k.val = k.val; omega

/-- The weight block is the whole [1024, 1024] array. -/
theorem wBlk_apply (c : Dev nD) (t : Fin cfg0.N) (k j : Fin 1024) :
    wBlk m c t (ix2 k j) = wA m c (ix2 j (encCol k)) := by
  obtain ⟨-, -, e0, e1, -⟩ := idx_facts t
  show (wblkV m c) (((cfg0.win 1).blk t).view.emb (ix2 k j)) = _
  refine Eq.trans (congrArg (wblkV m c) (funext fun a => Fin.ext ?_)) (wblk_apply m c k j)
  match a with
  | ⟨0, _⟩ => show win0_1.index t (0 : Fin 2) * 1024 + 1 * k.val = k.val; omega
  | ⟨1, _⟩ => show win0_1.index t (1 : Fin 2) * 1024 + 1 * j.val = j.val; omega

/-- The hidden row's block is the whole [1, 1024] array. -/
theorem hBlk_apply (c : Dev nD) (t : Fin cfg0.N) (j : Fin 1024) :
    hBlk m c t (ix2 (0 : Fin 1) j) = ∑ k : Fin 2048, hidA m c (ix2 (0 : Fin 1) k) * wA m c (ix2 j (hidCol k)) := by
  obtain ⟨-, -, -, -, e0, e1, -⟩ := idx_facts t
  show (hrowV m c) (((cfg0.win 2).blk t).view.emb (ix2 (0 : Fin 1) j)) = _
  refine Eq.trans (congrArg (hrowV m c) (funext fun a => Fin.ext ?_)) (hrow_apply m c j)
  match a with
  | ⟨0, _⟩ => show win0_2.index t (0 : Fin 2) * 1 + 1 * 0 = 0; omega
  | ⟨1, _⟩ => show win0_2.index t (1 : Fin 2) * 1024 + 1 * j.val = j.val; omega

/-- The bias row's block is the whole [1, 1024] array. -/
theorem bBlk_apply (c : Dev nD) (t : Fin cfg0.N) (j : Fin 1024) :
    bBlk m c t (ix2 (0 : Fin 1) j) = bA m c (ix1 j) := by
  obtain ⟨-, -, -, -, -, -, e0, e1, -⟩ := idx_facts t
  show (browV m c) (((cfg0.win 3).blk t).view.emb (ix2 (0 : Fin 1) j)) = _
  refine Eq.trans (congrArg (browV m c) (funext fun a => Fin.ext ?_)) (brow_apply m c j)
  match a with
  | ⟨0, _⟩ => show win0_3.index t (0 : Fin 2) * 1 + 1 * 0 = 0; omega
  | ⟨1, _⟩ => show win0_3.index t (1 : Fin 2) * 1024 + 1 * j.val = j.val; omega

/-- The column's block is the whole [1024, 1] array. -/
theorem vBlk_apply (c : Dev nD) (t : Fin cfg0.N) (j : Fin 1024) (q : Fin 1) :
    vBlk m c t (ix2 j q) = vA m c (ix2 (0 : Fin 1) j) := by
  obtain ⟨-, -, -, -, -, -, -, -, e0, e1, -⟩ := idx_facts t
  show (vcolV m c) (((cfg0.win 4).blk t).view.emb (ix2 j q)) = _
  refine Eq.trans (congrArg (vcolV m c) (funext fun a => Fin.ext ?_)) (vcol_apply m c j q)
  match a with
  | ⟨0, _⟩ => show win0_4.index t (0 : Fin 2) * 1024 + 1 * j.val = j.val; omega
  | ⟨1, _⟩ => show win0_4.index t (1 : Fin 2) * 1 + 1 * q.val = q.val; omega

/-- The score array of the arguments as launched. -/
abbrev scoreA (c : Dev nD) : FVec Ideal S32768x1 .f32 := score (hidA m c) (encA m c) (wA m c) (bA m c) (vA m c)

/-- What point `t` writes back is block `t` of the score array. -/
theorem flushed_eq (c : Dev nD) (t : Fin cfg0.N) :
    (dats m 0 c).flushed 5 t = ((cfg0.win 5).blk t).view.read (Elt Ideal) (scoreA m c) := by
  show (cfg0.win 5).cut (grid0.coords t) ((dats m 0 c).after 5 t) = _
  rw [after0_5]
  unfold out0_5
  rw [View.canon_unit_zero hz]
  simp only [View.ld_unit_zero (S := S1024x1024) hz, View.ld_unit_zero (S := S1x1024) hz, View.ld_unit_zero (S := S1024x1) hz]
  obtain ⟨-, -, -, -, -, -, -, -, -, -, e0, e1, ht⟩ := idx_facts t
  funext y
  obtain ⟨p, q, rfl⟩ : ∃ (p : Fin 1024) (q : Fin 1), y = ix2 p q := ⟨y 0, y 1, eq_ix2 y⟩
  show k0_pay1 (F := Ideal) (encBlk m c t) (wBlk m c t) (hBlk m c t) (bBlk m c t) (vBlk m c t) (ix2 p q)
    = scoreA m c (((cfg0.win 5).blk t).view.emb (ix2 p q))
  have hs : t.val * 1024 + p.val < 32768 := by have := p.isLt; omega
  have hemb : ((cfg0.win 5).blk t).view.emb (ix2 p q) = ix2 (⟨t.val * 1024 + p.val, hs⟩ : Fin 32768) q := by
    funext a; apply Fin.ext
    match a with
    | ⟨0, _⟩ => show win0_5.index t (0 : Fin 2) * 1024 + 1 * p.val = t.val * 1024 + p.val; omega
    | ⟨1, _⟩ => show win0_5.index t (1 : Fin 2) * 1 + 1 * q.val = q.val; omega
  rw [hemb]
  refine (pay_apply (encBlk m c t) (wBlk m c t) (hBlk m c t) (bBlk m c t) (vBlk m c t) p q).trans ?_
  show _ = ∑ j : Fin 1024, Ideal.tanh (energy (hidA m c) (encA m c) (wA m c) (bA m c) (⟨t.val * 1024 + p.val, hs⟩ : Fin 32768) j) * vA m c (ix2 (0 : Fin 1) j)
  refine Finset.sum_congr rfl fun j _ => ?_
  rw [vBlk_apply, hBlk_apply, bBlk_apply]
  unfold energy
  refine congrArg (fun e => Ideal.tanh (e + _ + _) * _) ?_
  refine Finset.sum_congr rfl fun k _ => ?_
  rw [wBlk_apply, encBlk_apply m c t p k ⟨t.val * 1024 + p.val, hs⟩ rfl]

/-- An index of the output is in point `t`'s block iff each coordinate is in the block's range on its axis. -/
theorem mem_blk (t : Fin cfg0.N) (i : S32768x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v9).slice (win0_5.rect t)).set ↔ _
  rw [View.set_slice_whole, Rect.mem_set_unit]
  exact Iff.rfl

/-- The 32 blocks cover the output: row `r` is in the block of point `r / 1024`. -/
theorem cover (i : S32768x1.Idx) : ∃ t : Fin cfg0.N, (cfg0.win 5).flush t = true ∧ i ∈ ((cfg0.win 5).blk t).view.set := by
  have hi0 : (i 0).val < 32768 := (i 0).isLt
  have hi1 : (i 1).val < 1 := (i 1).isLt
  obtain ⟨t, ht⟩ := idx_onto ⟨(i 0).val / 1024, by omega⟩
  have q0 : win0_5.index t (0 : Fin 2) = (i 0).val / 1024 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1 ≤ (i 1).val ∧ (i 1).val < win0_5.index t (1 : Fin 2) * 1 + 1; omega

/-- After the run the output array holds the score array of the arguments. -/
theorem final (c : Dev nD) : (dats m 0 c).arrAt 5 cfg0.N = scoreA m c :=
  (dats m 0 c).arrAt_eq_of_cover 5 (scoreA m c) (fun t _ => flushed_eq m c t) cover

end Cert.KernelIdeal.Blocks

end
-- ==== Proof.KTail.lean ====
/-
  The host operations after the region — the output read as a vector of length 32768, its maximum, the exponentials
  of the differences, their sum, the quotient — are `softmaxOf` of whatever the output array holds after the run.
-/
import proofs.«100050_j21543555957314_1_alg».proof.Proof.Gen.KernelIdeal.Frame
import proofs.«100050_j21543555957314_1_alg».proof.Proof.ScoreSpec
import Idealize.ShloMosaic.Lib.StableHlo.Run

noncomputable section

namespace Cert.KernelIdeal.Tail

open Cert.KernelIdeal Cert.KernelIdeal.Gen Idealize.ShloMosaic Idealize.ShloMosaic.TcCoe
open Idealize.ShloMosaic.StableHlo Idealize.SL.Sem Cert.AttnScore

variable (m : (ℓ : Loc nD τ sig) → Buf (Elt Ideal) ℓ)

/-- If the output array ends holding `G`, the result buffer ends holding the softmax of `G` over the sequence. -/
theorem result_eq_softmax (c : Dev nD) (G : FVec Ideal S32768x1 .f32) (hG : (dats m 0 c).arrAt 5 cfg0.N = G) :
    Pipeline.afterTail₀ cfgs (dats m) 0 (V0 m) [hostOps1] c main_v20
      = softmaxOf shapeCasts_S32768x1_S32768 reducesTo_S32768_S_d0 h_S_ bcast_S_S1 bcast_S1_S32768_0 G := by
  unfold Pipeline.afterTail₀
  show StableHlo.after hostOps1 _ (Proc.devRef .tc main_v20) = _
  after_results
  have hw : Pipeline.withArrays (cfgs 0).spec c (V0 m c) (fun w => (dats m 0 c).arrAt w (cfgs 0).N) (Proc.devRef .tc main_v9) = G :=
    (Pipeline.withArrays_arr spec0 launch0.win.arr_inj c _ _ 5).trans hG
  rw [hw]
  rfl

end Cert.KernelIdeal.Tail

end
-- ==== Proof.KRun.lean ====
/-
  The idealized kernel program's run, read: every weakly fair execution terminates with the result buffer at the
  softmax over the sequence of the score array of the arguments, and with the arguments unchanged.
-/
import proofs.«100050_j21543555957314_1_alg».proof.Proof.Gen.KernelIdeal.Frame
import proofs.«100050_j21543555957314_1_alg».proof.Proof.ScoreSpec
import proofs.«100050_j21543555957314_1_alg».proof.Proof.KEntry
import proofs.«100050_j21543555957314_1_alg».proof.Proof.KBlocks
import proofs.«100050_j21543555957314_1_alg».proof.Proof.KTail

noncomputable section

namespace Cert.KernelIdeal.Run

open Cert.KernelIdeal Cert.KernelIdeal.Gen Cert.KernelIdeal.Entry Cert.KernelIdeal.Blocks Cert.KernelIdeal.Tail
open Idealize.ShloMosaic Idealize.ShloMosaic.TcCoe Idealize.SL.Sem Cert.AttnScore

variable (m : (ℓ : Loc nD τ sig) → Buf (Elt Ideal) ℓ) (ρ : Dev nD → PrngReg)

/-- The result the program leaves on core `c`. -/
abbrev result (c : Dev nD) : FVec Ideal S32768 .f32 :=
  softmaxOf shapeCasts_S32768x1_S32768 reducesTo_S32768_S_d0 h_S_ bcast_S_S1 bcast_S1_S32768_0 (scoreA m c)

/-- The run: the output array ends at the score array (the 32 blocks cover it), the lines after the region turn it
    into its softmax, and no argument array is written. -/
theorem run : θ_run defs (onTc (τ := τ) (main (F := Ideal))) ⟨m, fun _ => 0, ρ⟩ (fun r => ∀ c : Dev nD,
      r.2.mem ((c.tc : Thread nD τ).loc main_v20) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_v20 (Pipeline.mem_restRefs_of main_v20 (by decide) (by decide))).trans (result_eq_softmax m c (scoreA m c) (final m c)),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Run

end
-- ==== Proof.RefScore.lean ====
/-
  The reference's score array, read index by index, is the specification's `score`: its first product contracts the
  concatenated row [hid[0, ·] | enc[s, ·]] against the transposed weight in one sum of 3072 terms, which splits into the
  hidden state's 2048 terms and the encoder row's 1024; the bias is broadcast along the rows; the second product
  contracts the hidden units against the transposed `v`.
-/
import proofs.«100050_j21543555957314_1_alg».proof.Proof.Gen.ReferenceIdeal.Read
import proofs.«100050_j21543555957314_1_alg».proof.Proof.ScoreSpec

noncomputable section

open scoped BigOperators

namespace Cert.ReferenceIdeal.RefScore

open Cert.ReferenceIdeal Cert.ReferenceIdeal.Gen Cert.ReferenceIdeal.Read Idealize.ShloMosaic Idealize.ShloMosaic.ValueIdx Cert.AttnScore

/-- The concatenated row at one of its first 2048 places is the hidden state there. -/
theorem cat_hid (x0 : FVec Ideal S1x2048 .f32) (x1 : FVec Ideal S32768x1024 .f32) (s : Fin 32768) (k : Fin 2048) :
    val_main_v1 (F := Ideal) x0 x1 (ix2 s (hidCol k)) = x0 (ix2 (0 : Fin 1) k) := by
  unfold val_main_v1
  refine (concatenate_pair_apply_left (1 : Fin S32768x3072.rank) (val_main_v0 (F := Ideal) x0) x1
    concatenates_S32768x2048_S32768x1024_S32768x3072_d1 (ix2 s (hidCol k)) rfl (ix2 s k) (fun b => match b with
      | ⟨0, _⟩ => rfl
      | ⟨1, _⟩ => rfl)).trans ?_
  rw [val_main_v0_apply]
  exact congrArg x0 (funext fun a => match a with
    | ⟨0, _⟩ => rfl
    | ⟨1, _⟩ => rfl)

/-- The concatenated row at one of its last 1024 places is the encoder row there. -/
theorem cat_enc (x0 : FVec Ideal S1x2048 .f32) (x1 : FVec Ideal S32768x1024 .f32) (s : Fin 32768) (k : Fin 1024) :
    val_main_v1 (F := Ideal) x0 x1 (ix2 s (encCol k)) = x1 (ix2 s k) := by
  unfold val_main_v1
  exact concatenate_pair_apply_right (1 : Fin S32768x3072.rank) (val_main_v0 (F := Ideal) x0) x1
    concatenates_S32768x2048_S32768x1024_S32768x3072_d1 (ix2 s (encCol k)) rfl rfl (ix2 s k) (fun b => match b with
      | ⟨0, _⟩ => fun _ => rfl
      | ⟨1, _⟩ => fun h => absurd rfl h)
    (by show k.val + 2048 = 2048 + k.val; omega)

/-- The first product's operand indices at output `(s, j)` and contraction place `k`. -/
theorem lidx3 (s : Fin 32768) (j : Fin 1024) (k : Fin 3072) : lidx_main_v3 (ix2 s j) k = ix2 s k :=
  funext fun a => match a with | ⟨0, _⟩ => rfl | ⟨1, _⟩ => rfl
theorem ridx3 (s : Fin 32768) (j : Fin 1024) (k : Fin 3072) : idx_main_v2 (ridx_main_v3 (ix2 s j) k) = ix2 j k :=
  funext fun a => match a with | ⟨0, _⟩ => rfl | ⟨1, _⟩ => rfl
/-- The bias read at `(s, j)` through its two broadcasts. -/
theorem bidx (s : Fin 32768) (j : Fin 1024) : idx_main_v4 (idx_main_v5 (ix2 s j)) = ix1 j :=
  funext fun a => match a with | ⟨0, _⟩ => rfl
/-- The second product's operand indices at output `(s, q)` and contraction place `j`. -/
theorem lidx9 (s : Fin 32768) (q : Fin 1) (j : Fin 1024) : lidx_main_v9 (ix2 s q) j = ix2 s j :=
  funext fun a => match a with | ⟨0, _⟩ => rfl | ⟨1, _⟩ => rfl
theorem ridx9 (s : Fin 32768) (q : Fin 1) (j : Fin 1024) : idx_main_v8 (ridx_main_v9 (ix2 s q) j) = ix2 (0 : Fin 1) j :=
  funext fun a => match a with
    | ⟨0, _⟩ => Fin.ext (by show q.val = 0; omega)
    | ⟨1, _⟩ => rfl

/-- The reference's pre-activation at `(s, j)`. -/
theorem preact_apply (x0 : FVec Ideal S1x2048 .f32) (x1 : FVec Ideal S32768x1024 .f32) (x2 : FVec Ideal S1024x3072 .f32)
    (x3 : FVec Ideal S1024 .f32) (s : Fin 32768) (j : Fin 1024) :
    val_main_v6 (F := Ideal) x0 x1 x2 x3 (ix2 s j) = energy x0 x1 x2 x3 s j := by
  rw [val_main_v6_apply, val_main_v3_apply, val_main_v5_apply, val_main_v4_apply, bidx]
  simp only [lidx3, val_main_v2_apply, ridx3]
  exact energy_of_concat x0 x1 x2 x3 s j (fun k => val_main_v1 (F := Ideal) x0 x1 (ix2 s k)) (cat_hid x0 x1 s) (cat_enc x0 x1 s)

/-- The reference's score array is `score` of the arguments. -/
theorem score_eq (x0 : FVec Ideal S1x2048 .f32) (x1 : FVec Ideal S32768x1024 .f32) (x2 : FVec Ideal S1024x3072 .f32)
    (x3 : FVec Ideal S1024 .f32) (x4 : FVec Ideal S1x1024 .f32) :
    val_main_v9 (F := Ideal) x0 x1 x2 x3 x4 = score x0 x1 x2 x3 x4 := by
  funext i
  obtain ⟨s, q, rfl⟩ : ∃ (s : Fin 32768) (q : Fin 1), i = ix2 s q := ⟨i 0, i 1, eq_ix2 i⟩
  rw [val_main_v9_apply]
  unfold score
  refine Finset.sum_congr rfl fun j _ => ?_
  rw [lidx9, val_main_v8_apply, ridx9, val_main_v7_apply, preact_apply]
  rfl

end Cert.ReferenceIdeal.RefScore

end
-- ==== Proof.RefTail.lean ====
/-
  The reference's result is the softmax over the sequence of its score array: the operations after the second product
  are exactly those of `softmaxOf`, applied to that array.
-/
import proofs.«100050_j21543555957314_1_alg».proof.Proof.Gen.ReferenceIdeal.Read
import proofs.«100050_j21543555957314_1_alg».proof.Proof.ScoreSpec

noncomputable section

namespace Cert.ReferenceIdeal.RefScore

open Cert.ReferenceIdeal Cert.ReferenceIdeal.Gen Cert.ReferenceIdeal.Read Idealize.ShloMosaic Cert.AttnScore

/-- The reference's last stage is `softmaxOf` of its score stage. -/
theorem result_eq_softmax (x0 : FVec Ideal S1x2048 .f32) (x1 : FVec Ideal S32768x1024 .f32) (x2 : FVec Ideal S1024x3072 .f32)
    (x3 : FVec Ideal S1024 .f32) (x4 : FVec Ideal S1x1024 .f32) :
    val_main_v20 (F := Ideal) x0 x1 x2 x3 x4
      = softmaxOf shapeCasts_S32768x1_S32768 reducesTo_S32768_S_d0 h_S_ bcast_S_S1 bcast_S1_S32768_0 (val_main_v9 (F := Ideal) x0 x1 x2 x3 x4) := by
  generalize hx : val_main_v9 (F := Ideal) x0 x1 x2 x3 x4 = x
  simp only [val_main_v20, val_main_v19, val_main_v18, val_main_v17, val_main_v16, val_main_v15, val_main_v14, val_main_v13,
    val_main_v12, val_main_v11, val_main_v10, val_main_cst, val_main_cst_0, val_main_cst_1, hx]
  rfl

end Cert.ReferenceIdeal.RefScore

end
-- ==== Proof.lean ====
/-
  Additive attention scores and their softmax: the kernel program against its reference, over the extended reals.

  Both programs compute, for each of the 32768 sequence positions `s`,
      score(s) = Σ_j tanh ( Σ_k enc[s, k] · w[j, 2048 + k] + Σ_k hid[0, k] · w[j, k] + b[j] ) · v[0, j]
  and return the softmax of the scores over `s`. The kernel program forms the hidden state's sum once on the host, adds
  it to the encoder row's sum inside the kernel, block of 1024 rows by block, and applies the softmax on the host after
  the region; the reference contracts the concatenated row [hid[0, ·] | enc[s, ·]] in one sum of 3072 terms. The two
  arrangements agree because a sum over 2048 + 1024 places is the sum of its two parts (Proof/ScoreSpec.lean), and the
  softmax, the same operations on both sides, is carried as one function of the score array and never opened.

  Proof/KPayload.lean reads the kernel body's stored value at an index, Proof/KEntry.lean the arrays the region finds,
  Proof/KBlocks.lean goes from the blocks to the whole score array, Proof/KTail.lean reads the lines after the region,
  Proof/KRun.lean states the kernel program's run; Proof/RefScore.lean and Proof/RefTail.lean read the reference's
  stages as the same two functions.
-/
import proofs.«100050_j21543555957314_1_alg».proof.Defs
import proofs.«100050_j21543555957314_1_alg».proof.Proof.Gen.Kernel
import proofs.«100050_j21543555957314_1_alg».proof.Proof.Gen.Kernel.Skeleton
import proofs.«100050_j21543555957314_1_alg».proof.Proof.Gen.Kernel.Launch
import proofs.«100050_j21543555957314_1_alg».proof.Proof.Gen.Kernel.Points
import proofs.«100050_j21543555957314_1_alg».proof.Proof.Gen.Kernel.Frame
import proofs.«100050_j21543555957314_1_alg».proof.Proof.Gen.KernelIdeal
import proofs.«100050_j21543555957314_1_alg».proof.Proof.Gen.KernelIdeal.Skeleton
import proofs.«100050_j21543555957314_1_alg».proof.Proof.Gen.KernelIdeal.Launch
import proofs.«100050_j21543555957314_1_alg».proof.Proof.Gen.KernelIdeal.Points
import proofs.«100050_j21543555957314_1_alg».proof.Proof.Gen.KernelIdeal.Frame
import proofs.«100050_j21543555957314_1_alg».proof.Proof.Gen.ReferenceIdeal
import proofs.«100050_j21543555957314_1_alg».proof.Proof.Gen.Pre_finite_inputs
import proofs.«100050_j21543555957314_1_alg».proof.Proof.Gen.ReferenceIdeal.Run
import proofs.«100050_j21543555957314_1_alg».proof.Proof.Gen.ReferenceIdeal.Read
import proofs.«100050_j21543555957314_1_alg».proof.Proof.ScoreSpec
import proofs.«100050_j21543555957314_1_alg».proof.Proof.KRun
import proofs.«100050_j21543555957314_1_alg».proof.Proof.RefScore
import proofs.«100050_j21543555957314_1_alg».proof.Proof.RefTail
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does the kernel program read at the exact values. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the softmax of the same score array: the kernel
    program's run states it of its own arguments, the reference's run is read stage by stage as `softmaxOf` of
    `score` of its arguments, and the arguments agree. -/
theorem algebraic : Cert.algebraic_KernelIdeal_ReferenceIdeal := by
  intro m ρ m' ρ' _ hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefScore.result_eq_softmax,
    Cert.ReferenceIdeal.RefScore.score_eq, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
